-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S6400000 : Shape := ⟨1, ![6400000]⟩
abbrev S8649x3 : Shape := ⟨2, ![8649, 3]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel
  bcast_S_S8649x3 : S_.BroadcastsInDim S8649x3 (![] : Fin 0 → Fin S8649x3.rank)
  reducesTo_S8649x3_S_d0_1 : S8649x3.ReducesTo [0, 1] S_

variable [Facts]

def fn_part1 {F : FTy → Type} [FloatOps F] (main_v13 : IVec S_ 1) (main_v16 : IVec S8649x3 1) : IVec S_ 1 :=
  let main_c_5 : IVec S_ 1 := constantI S_ 1 1#1
  let main_v17 : IVec S_ 1 := (fun x v => Host.reduce IntOp.andi x v reducesTo_S8649x3_S_d0_1 h_S_) main_v16 main_c_5
  let main_v18 : IVec S_ 1 := andi main_v13 main_v17
  main_v18

def fn {F : FTy → Type} [FloatOps F] (main_arg0 : IVec S100000 32) (main_arg1 : IVec S6400000 32) (main_arg2 : IVec S6400000 32) (main_arg3 : FVec F S6400000 .f32) (main_arg4 : FVec F S6400000 .f32) (main_arg5 : FVec F S8649x3 .f32) (main_arg6 : FVec F S8649x3 .f32) : IVec S_ 1 :=
  let main_v0 : FVec F S6400000 .f32 := Host.absf main_arg3
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  let main_v4 : FVec F S6400000 .f32 := Host.absf main_arg4
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S8649x3 .f32 := Host.absf main_arg5
  let main_cst_2 : FVec F S_ .f32 := constant S_ .f32 0x7F800000#32
  let main_v10 : FVec F S8649x3 .f32 := broadcastInDim S8649x3 ![] bcast_S_S8649x3 main_cst_2
  let main_v11 : IVec S8649x3 1 := cmpf .olt main_v9 main_v10
  let main_c_3 : IVec S_ 1 := constantI S_ 1 1#1
  let main_v12 : IVec S_ 1 := (fun x v => Host.reduce IntOp.andi x v reducesTo_S8649x3_S_d0_1 h_S_) main_v11 main_c_3
  let main_v13 : IVec S_ 1 := andi main_v8 main_v12
  let main_v14 : FVec F S8649x3 .f32 := Host.absf main_arg6
  let main_cst_4 : FVec F S_ .f32 := constant S_ .f32 0x7F800000#32
  let main_v15 : FVec F S8649x3 .f32 := broadcastInDim S8649x3 ![] bcast_S_S8649x3 main_cst_4
  let main_v16 : IVec S8649x3 1 := cmpf .olt main_v14 main_v15
  fn_part1 (F := F) main_v13 main_v16
-- ==== Kernel.lean ====
abbrev S100000 : Shape := ⟨1, ![100000]⟩
abbrev S6400000 : Shape := ⟨1, ![6400000]⟩
abbrev S8649x3 : Shape := ⟨2, ![8649, 3]⟩
abbrev S_ : Shape := ⟨0, ![]⟩
abbrev S6400000x1 : Shape := ⟨2, ![6400000, 1]⟩
abbrev S6400000x3 : Shape := ⟨2, ![6400000, 3]⟩
abbrev S50000x128 : Shape := ⟨2, ![50000, 128]⟩
abbrev S2000x128 : Shape := ⟨2, ![2000, 128]⟩

abbrev nBuf : Space → Nat
  | .hbm => 104
  | .vmem => 22
  | .smem => 0
  | _ => 0

abbrev bufTy : (tb : Table) → Fin (tcTables nBuf tb) → BufTy
  | .hbm, ⟨0, _⟩ => ⟨S100000, .i32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S6400000, .f32⟩
  | .hbm, ⟨5, _⟩ => ⟨S8649x3, .f32⟩
  | .hbm, ⟨6, _⟩ => ⟨S8649x3, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000, .i32⟩
  | .hbm, ⟨24, _⟩ => ⟨S_, .i32⟩
  | .hbm, ⟨25, _⟩ => ⟨S6400000, .i32⟩
  | .hbm, ⟨26, _⟩ => ⟨S6400000, .i1⟩
  | .hbm, ⟨27, _⟩ => ⟨S_, .i32⟩
  | .hbm, ⟨28, _⟩ => ⟨S6400000, .i32⟩
  | .hbm, ⟨29, _⟩ => ⟨S6400000, .i32⟩
  | .hbm, ⟨30, _⟩ => ⟨S6400000, .i32⟩
  | .hbm, ⟨31, _⟩ => ⟨S6400000x1, .i32⟩
  | .hbm, ⟨32, _⟩ => ⟨S6400000, .i32⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S_, .i32⟩
  | .hbm, ⟨38, _⟩ => ⟨S6400000, .i32⟩
  | .hbm, ⟨39, _⟩ => ⟨S6400000, .i1⟩
  | .hbm, ⟨40, _⟩ => ⟨S_, .i32⟩
  | .hbm, ⟨41, _⟩ => ⟨S6400000, .i32⟩
  | .hbm, ⟨42, _⟩ => ⟨S6400000, .i32⟩
  | .hbm, ⟨43, _⟩ => ⟨S6400000, .i32⟩
  | .hbm, ⟨44, _⟩ => ⟨S6400000x1, .i32⟩
  | .hbm, ⟨45, _⟩ => ⟨S6400000x3, .f32⟩
  | .hbm, ⟨46, _⟩ => ⟨S_, .i32⟩
  | .hbm, ⟨47, _⟩ => ⟨S6400000, .i32⟩
  | .hbm, ⟨48, _⟩ => ⟨S6400000, .i1⟩
  | .hbm, ⟨49, _⟩ => ⟨S_, .i32⟩
  | .hbm, ⟨50, _⟩ => ⟨S6400000, .i32⟩
  | .hbm, ⟨51, _⟩ => ⟨S6400000, .i32⟩
  | .hbm, ⟨52, _⟩ => ⟨S6400000, .i32⟩
  | .hbm, ⟨53, _⟩ => ⟨S6400000x1, .i32⟩
  | .hbm, ⟨54, _⟩ => ⟨S6400000x3, .f32⟩
  | .hbm, ⟨55, _⟩ => ⟨S_, .i32⟩
  | .hbm, ⟨56, _⟩ => ⟨S6400000, .i32⟩
  | .hbm, ⟨57, _⟩ => ⟨S6400000, .i1⟩
  | .hbm, ⟨58, _⟩ => ⟨S_, .i32⟩
  | .hbm, ⟨59, _⟩ => ⟨S6400000, .i32⟩
  | .hbm, ⟨60, _⟩ => ⟨S6400000, .i32⟩
  | .hbm, ⟨61, _⟩ => ⟨S6400000, .i32⟩
  | .hbm, ⟨62, _⟩ => ⟨S6400000x1, .i32⟩
  | .hbm, ⟨63, _⟩ => ⟨S6400000, .f32⟩
  | .hbm, ⟨64, _⟩ => ⟨S_, .i32⟩
  | .hbm, ⟨65, _⟩ => ⟨S6400000, .i32⟩
  | .hbm, ⟨66, _⟩ => ⟨S6400000, .i1⟩
  | .hbm, ⟨67, _⟩ => ⟨S_, .i32⟩
  | .hbm, ⟨68, _⟩ => ⟨S6400000, .i32⟩
  | .hbm, ⟨69, _⟩ => ⟨S6400000, .i32⟩
  | .hbm, ⟨70, _⟩ => ⟨S6400000, .i32⟩
  | .hbm, ⟨71, _⟩ => ⟨S6400000x1, .i32⟩
  | .hbm, ⟨72, _⟩ => ⟨S6400000, .f32⟩
  | .hbm, ⟨73, _⟩ => ⟨S6400000x1, .f32⟩
  | .hbm, ⟨74, _⟩ => ⟨S6400000, .f32⟩
  | .hbm, ⟨75, _⟩ => ⟨S50000x128, .f32⟩
  | .hbm, ⟨76, _⟩ => ⟨S6400000x1, .f32⟩
  | .hbm, ⟨77, _⟩ => ⟨S6400000, .f32⟩
  | .hbm, ⟨78, _⟩ => ⟨S50000x128, .f32⟩
  | .hbm, ⟨79, _⟩ => ⟨S6400000x1, .f32⟩
  | .hbm, ⟨80, _⟩ => ⟨S6400000, .f32⟩
  | .hbm, ⟨81, _⟩ => ⟨S50000x128, .f32⟩
  | .hbm, ⟨82, _⟩ => ⟨S6400000x1, .f32⟩
  | .hbm, ⟨83, _⟩ => ⟨S6400000, .f32⟩
  | .hbm, ⟨84, _⟩ => ⟨S50000x128, .f32⟩
  | .hbm, ⟨85, _⟩ => ⟨S6400000x1, .f32⟩
  | .hbm, ⟨86, _⟩ => ⟨S6400000, .f32⟩
  | .hbm, ⟨87, _⟩ => ⟨S50000x128, .f32⟩
  | .hbm, ⟨88, _⟩ => ⟨S6400000x1, .f32⟩
  | .hbm, ⟨89, _⟩ => ⟨S6400000, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S6400000, .f32⟩
  | .hbm, ⟨97, _⟩ => ⟨S_, .f32⟩
  | .hbm, ⟨98, _⟩ => ⟨S100000, .f32⟩
  | .hbm, ⟨99, _⟩ => ⟨S6400000x1, .i32⟩
  | .hbm, ⟨100, _⟩ => ⟨S100000, .f32⟩
  | .hbm, ⟨101, _⟩ => ⟨S_, .f32⟩
  | .hbm, ⟨102, _⟩ => ⟨S100000, .f32⟩
  | .hbm, ⟨103, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_c_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S100000 : S_.BroadcastsInDim S100000 (![] : Fin 0 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x3_S6400000x1_0_0 : S6400000x3.Slices ![0, 0] S6400000x1
  shapeCasts_S6400000x1_S6400000 : S6400000x1.ShapeCasts S6400000
  shapeCasts_S6400000_S50000x128 : S6400000.ShapeCasts S50000x128
  slices_S6400000x3_S6400000x1_0_1 : S6400000x3.Slices ![0, 1] S6400000x1
  slices_S6400000x3_S6400000x1_0_2 : S6400000x3.Slices ![0, 2] S6400000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S50000x128_S6400000 : S50000x128.ShapeCasts S6400000
  gather_S100000_S6400000x1_S6400000_n_0_n_n_0_1_1_wf : GatherDims.WF S100000 S6400000x1 S6400000 [] [0] [] [0] [] 1 ![1]
  gather_S8649x3_S6400000x1_S6400000x3_1_0_n_n_0_1_13_wf : GatherDims.WF S8649x3 S6400000x1 S6400000x3 [1] [0] [] [0] [] 1 ![1, 3]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S8649x3_S6400000x1_S6400000x3_1_0_n_n_0_1_13 : GatherDims S8649x3 S6400000x1 S6400000x3 where
  offsetDims := [1]
  collapsedSliceDims := [0]
  operandBatchingDims := []
  startIndicesBatchingDims := []
  startIndexMap := [0]
  indexVectorDim := 1
  sliceSizes := ![1, 3]
  wf := gather_S8649x3_S6400000x1_S6400000x3_1_0_n_n_0_1_13_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v51) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v63) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v66) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v67) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v68) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v69) S2000x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v70) S2000x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v71) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000 : Shape := ⟨1, ![100000]⟩
abbrev S6400000 : Shape := ⟨1, ![6400000]⟩
abbrev S8649x3 : Shape := ⟨2, ![8649, 3]⟩
abbrev S_ : Shape := ⟨0, ![]⟩
abbrev S6400000x1 : Shape := ⟨2, ![6400000, 1]⟩
abbrev S6400000x3 : Shape := ⟨2, ![6400000, 3]⟩

abbrev nBuf : Space → Nat
  | .hbm => 92
  | .vmem => 0
  | .smem => 0
  | _ => 0

abbrev bufTy : (tb : Table) → Fin (tcTables nBuf tb) → BufTy
  | .hbm, ⟨0, _⟩ => ⟨S100000, .i32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S6400000, .f32⟩
  | .hbm, ⟨5, _⟩ => ⟨S8649x3, .f32⟩
  | .hbm, ⟨6, _⟩ => ⟨S8649x3, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000, .i32⟩
  | .hbm, ⟨25, _⟩ => ⟨S_, .i32⟩
  | .hbm, ⟨26, _⟩ => ⟨S6400000, .i32⟩
  | .hbm, ⟨27, _⟩ => ⟨S6400000, .i32⟩
  | .hbm, ⟨28, _⟩ => ⟨S6400000, .i32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000x3, .f32⟩
  | .hbm, ⟨38, _⟩ => ⟨S_, .i32⟩
  | .hbm, ⟨39, _⟩ => ⟨S6400000, .i32⟩
  | .hbm, ⟨40, _⟩ => ⟨S6400000, .i1⟩
  | .hbm, ⟨41, _⟩ => ⟨S_, .i32⟩
  | .hbm, ⟨42, _⟩ => ⟨S6400000, .i32⟩
  | .hbm, ⟨43, _⟩ => ⟨S6400000, .i32⟩
  | .hbm, ⟨44, _⟩ => ⟨S6400000, .i32⟩
  | .hbm, ⟨45, _⟩ => ⟨S6400000x1, .i32⟩
  | .hbm, ⟨46, _⟩ => ⟨S6400000x3, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S100000, .f32⟩
  | .hbm, ⟨51, _⟩ => ⟨S_, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S6400000x3, .f32⟩
  | .hbm, ⟨56, _⟩ => ⟨S6400000x1, .f32⟩
  | .hbm, ⟨57, _⟩ => ⟨S6400000x3, .f32⟩
  | .hbm, ⟨58, _⟩ => ⟨S6400000x3, .f32⟩
  | .hbm, ⟨59, _⟩ => ⟨S6400000x3, .f32⟩
  | .hbm, ⟨60, _⟩ => ⟨S6400000x3, .f32⟩
  | .hbm, ⟨61, _⟩ => ⟨S_, .f32⟩
  | .hbm, ⟨62, _⟩ => ⟨S6400000, .f32⟩
  | .hbm, ⟨63, _⟩ => ⟨S_, .i32⟩
  | .hbm, ⟨64, _⟩ => ⟨S6400000, .i32⟩
  | .hbm, ⟨65, _⟩ => ⟨S6400000, .i1⟩
  | .hbm, ⟨66, _⟩ => ⟨S_, .i32⟩
  | .hbm, ⟨67, _⟩ => ⟨S6400000, .i32⟩
  | .hbm, ⟨68, _⟩ => ⟨S6400000, .i32⟩
  | .hbm, ⟨69, _⟩ => ⟨S6400000, .i32⟩
  | .hbm, ⟨70, _⟩ => ⟨S6400000x1, .i32⟩
  | .hbm, ⟨71, _⟩ => ⟨S6400000, .f32⟩
  | .hbm, ⟨72, _⟩ => ⟨S_, .i32⟩
  | .hbm, ⟨73, _⟩ => ⟨S6400000, .i32⟩
  | .hbm, ⟨74, _⟩ => ⟨S6400000, .i1⟩
  | .hbm, ⟨75, _⟩ => ⟨S_, .i32⟩
  | .hbm, ⟨76, _⟩ => ⟨S6400000, .i32⟩
  | .hbm, ⟨77, _⟩ => ⟨S6400000, .i32⟩
  | .hbm, ⟨78, _⟩ => ⟨S6400000, .i32⟩
  | .hbm, ⟨79, _⟩ => ⟨S6400000x1, .i32⟩
  | .hbm, ⟨80, _⟩ => ⟨S6400000, .f32⟩
  | .hbm, ⟨81, _⟩ => ⟨S6400000, .f32⟩
  | .hbm, ⟨82, _⟩ => ⟨S6400000, .f32⟩
  | .hbm, ⟨83, _⟩ => ⟨S6400000, .f32⟩
  | .hbm, ⟨84, _⟩ => ⟨S6400000, .f32⟩
  | .hbm, ⟨85, _⟩ => ⟨S_, .f32⟩
  | .hbm, ⟨86, _⟩ => ⟨S100000, .f32⟩
  | .hbm, ⟨87, _⟩ => ⟨S6400000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call0_v0 : Ref sig .tc := ⟨.hbm, 52, rfl⟩
abbrev main_call0_v1 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000 : S_.BroadcastsInDim S100000 (![] : Fin 0 → Fin S100000.rank)
  bcast_S6400000x1_S6400000x3_0_1 : S6400000x1.BroadcastsInDim S6400000x3 (![0, 1] : Fin 2 → Fin S6400000x3.rank)
  reducesTo_S6400000x3_S6400000_d1 : S6400000x3.ReducesTo [1] S6400000
  h_S_ : 0 < S_.numel
  gather_S100000_S6400000x1_S6400000_n_0_n_n_0_1_1_wf : GatherDims.WF S100000 S6400000x1 S6400000 [] [0] [] [0] [] 1 ![1]
  gather_S8649x3_S6400000x1_S6400000x3_1_0_n_n_0_1_13_wf : GatherDims.WF S8649x3 S6400000x1 S6400000x3 [1] [0] [] [0] [] 1 ![1, 3]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S8649x3_S6400000x1_S6400000x3_1_0_n_n_0_1_13 : GatherDims S8649x3 S6400000x1 S6400000x3 where
  offsetDims := [1]
  collapsedSliceDims := [0]
  operandBatchingDims := []
  startIndicesBatchingDims := []
  startIndexMap := [0]
  indexVectorDim := 1
  sliceSizes := ![1, 3]
  wf := gather_S8649x3_S6400000x1_S6400000x3_1_0_n_n_0_1_13_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.EdgeEnergy.lean ====
/-
  The repulsion energy of ONE edge as a function of ten extended reals, and the law that joins the two
  programs' spellings of it.

  For an edge with charges `zs`, `zd`, screening coefficients `c0 c1 c2`, screening exponents `a0 a1 a2`,
  switch value `sw` and length `d`, the energy is

      zs · zd · φ(d) · sw / d,      φ(d) = c0·exp(−a0·d) + c1·exp(−a1·d) + c2·exp(−a2·d).

  The kernel adds the three terms left to right and writes each exponent as `(0 − a)·d`. The reference
  negates the exponents' row, multiplies by `d`, and sums the three products from the initial value `0`.
  The two agree on EVERY extended real, infinities included: the only facts used are `0 + x = x`,
  `0 − x = −x`, and that a sum over three indices is its three terms added in order. No finiteness of any
  input is needed, so nothing here opens the precondition.
-/
import Idealize.ShloMosaic.PureOps.Ideal.Laws
import Mathlib.Algebra.BigOperators.Fin

noncomputable section

namespace Cert.EdgeEnergy

open Idealize.ShloMosaic

/-- One term of the screening function, the exponent written as the kernel writes it: `c · exp((0 − a) · d)`. -/
def term (c a d : EReal) : EReal := c * Ideal.exp ((0 - a) * d)

/-- The screening function: its three terms added left to right. -/
def screen (c0 c1 c2 a0 a1 a2 d : EReal) : EReal := (term c0 a0 d + term c1 a1 d) + term c2 a2 d

/-- The energy of one edge: `zs · zd · φ(d) · sw / d`, multiplied in that order. -/
def pair (zs zd c0 c1 c2 a0 a1 a2 sw d : EReal) : EReal :=
  Ideal.div (((zs * zd) * screen c0 c1 c2 a0 a1 a2 d) * sw) d

/-- The reference's screening sum — from `0`, over the three columns, each exponent negated — is the kernel's
    left-to-right sum of three terms. -/
theorem sum_eq_screen (c a : Fin 3 → EReal) (d : EReal) :
    (0 : EReal) + ∑ k : Fin 3, c k * Ideal.exp (-(a k) * d) = screen (c 0) (c 1) (c 2) (a 0) (a 1) (a 2) d := by
  rw [Fin.sum_univ_three, zero_add]
  simp only [screen, term, zero_sub]

/-- Equal arguments, equal energies: the ten at once. -/
theorem pair_congr {zs zd c0 c1 c2 a0 a1 a2 sw d zs' zd' c0' c1' c2' a0' a1' a2' sw' d' : EReal}
    (h1 : zs = zs') (h2 : zd = zd') (h3 : c0 = c0') (h4 : c1 = c1') (h5 : c2 = c2') (h6 : a0 = a0') (h7 : a1 = a1')
    (h8 : a2 = a2') (h9 : sw = sw') (h10 : d = d') :
    pair zs zd c0 c1 c2 a0 a1 a2 sw d = pair zs' zd' c0' c1' c2' a0' a1' a2' sw' d' := by
  rw [h1, h2, h3, h4, h5, h6, h7, h8, h9, h10]

end Cert.EdgeEnergy

end
-- ==== Proof.EnergyBlocks.lean ====
/-
  The kernel's region, read as a value: the [50000,128] array it leaves is the edge energy computed entry by entry
  from the ten [50000,128] arrays it is handed.

  The grid has 25 points; at point `t` every one of the eleven windows is on rows `2000·t … 2000·t + 1999`, all 128
  columns (all eleven index maps are `t ↦ (t, 0)`, decided over the grid). The body loads the ten input blocks whole,
  applies pointwise arithmetic, and stores one whole block, so entry `(r, l)` of the block written at `t` depends only
  on entry `(r, l)` of each input block, which is entry `(2000·t + r, l)` of each input array. The 25 blocks tile the
  50000 rows, so the array after the region is that function at every index.
-/
import proofs.«126708_j19310172963097_1_alg».proof.Proof.Gen.KernelIdeal.Frame
import proofs.«126708_j19310172963097_1_alg».proof.Proof.EdgeEnergy
import Idealize.ShloMosaic.Lib.Pipeline.Value
import Idealize.ShloMosaic.Lib.ValueIdx
import Idealize.ShloMosaic.PureOps.Ideal.Laws

set_option Elab.async false
set_option maxRecDepth 16384

noncomputable section

namespace Cert.KernelIdeal.EnergyBlocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The energy of every edge, laid out [50000,128], from the screening coefficients `c0 c1 c2`, the screening exponents
    `a0 a1 a2`, the two charges, the lengths and the switch values in the same layout. -/
abbrev energies (c0 c1 c2 a0 a1 a2 zs zd d sw : S50000x128.Idx → Elt Ideal .f32) : S50000x128.Idx → Elt Ideal .f32 :=
  fun i => EdgeEnergy.pair (zs i) (zd i) (c0 i) (c1 i) (c2 i) (a0 i) (a1 i) (a2 i) (sw i) (d i)

/-- The body's arithmetic at one entry of its blocks is the edge energy of that entry's ten numbers: each load's
    cast to its own shape does nothing, every other operation acts entry by entry, and the splat zero is `0`. -/
theorem body_apply (x0 x1 x2 x3 x4 x5 x6 x7 x8 x9 : Vec Ideal S2000x128 .f32) (j : S2000x128.Idx) :
    k0_pay1 (k0_pay2 x8) (k0_pay3 x8 x0 x3 x1 x4 x2 x5 x6 x7) x9 j
      = EdgeEnergy.pair (x6 j) (x7 j) (x0 j) (x1 j) (x2 j) (x3 j) (x4 j) (x5 j) (x9 j) (x8 j) := by
  unfold k0_pay1 k0_pay3 k0_pay2
  simp only [shapeCast_self]
  simp only [EdgeEnergy.pair, EdgeEnergy.screen, EdgeEnergy.term, ← Ideal.ofBits_zero_f32]
  rfl

theorem origin_zero : (![0, 0] : Fin 2 → Nat) = fun _ => 0 := funext fun a => by fin_cases a <;> rfl

/-- Every input window's index map is the output window's: the eleven maps are one function of the grid point. -/
theorem index_0 (t : Fin cfg0.N) (a : Fin 2) : win0_0.index t a = win0_10.index t a := rfl
theorem index_1 (t : Fin cfg0.N) (a : Fin 2) : win0_1.index t a = win0_10.index t a := rfl
theorem index_2 (t : Fin cfg0.N) (a : Fin 2) : win0_2.index t a = win0_10.index t a := rfl
theorem index_3 (t : Fin cfg0.N) (a : Fin 2) : win0_3.index t a = win0_10.index t a := rfl
theorem index_4 (t : Fin cfg0.N) (a : Fin 2) : win0_4.index t a = win0_10.index t a := rfl
theorem index_5 (t : Fin cfg0.N) (a : Fin 2) : win0_5.index t a = win0_10.index t a := rfl
theorem index_6 (t : Fin cfg0.N) (a : Fin 2) : win0_6.index t a = win0_10.index t a := rfl
theorem index_7 (t : Fin cfg0.N) (a : Fin 2) : win0_7.index t a = win0_10.index t a := rfl
theorem index_8 (t : Fin cfg0.N) (a : Fin 2) : win0_8.index t a = win0_10.index t a := rfl
theorem index_9 (t : Fin cfg0.N) (a : Fin 2) : win0_9.index t a = win0_10.index t a := rfl

/-- The block of point `t` is number `t` along the rows and `0` along the columns (decided over the 25 points). -/
theorem block_of_point : ∀ t : Fin cfg0.N, win0_10.index t (0 : Fin 2) = t.val ∧ win0_10.index t (1 : Fin 2) = 0 :=
  (by decide +kernel : ∀ t : Fin grid0.N, _)

/-- Entry `j` of input window `w`'s block at point `t` sits where entry `j` of the output window's block does. -/
theorem emb_0 (t : Fin cfg0.N) (j : S2000x128.Idx) :
    ((cfg0.win 0).blk t).view.emb j = ((cfg0.win 10).blk t).view.emb j := by
  funext a; apply Fin.ext
  match a with
  | ⟨0, _⟩ => show win0_0.index t (0 : Fin 2) * 2000 + 1 * (j 0).val = win0_10.index t (0 : Fin 2) * 2000 + 1 * (j 0).val; rw [index_0]
  | ⟨1, _⟩ => show win0_0.index t (1 : Fin 2) * 128 + 1 * (j 1).val = win0_10.index t (1 : Fin 2) * 128 + 1 * (j 1).val; rw [index_0]
theorem emb_1 (t : Fin cfg0.N) (j : S2000x128.Idx) :
    ((cfg0.win 1).blk t).view.emb j = ((cfg0.win 10).blk t).view.emb j := by
  funext a; apply Fin.ext
  match a with
  | ⟨0, _⟩ => show win0_1.index t (0 : Fin 2) * 2000 + 1 * (j 0).val = win0_10.index t (0 : Fin 2) * 2000 + 1 * (j 0).val; rw [index_1]
  | ⟨1, _⟩ => show win0_1.index t (1 : Fin 2) * 128 + 1 * (j 1).val = win0_10.index t (1 : Fin 2) * 128 + 1 * (j 1).val; rw [index_1]
theorem emb_2 (t : Fin cfg0.N) (j : S2000x128.Idx) :
    ((cfg0.win 2).blk t).view.emb j = ((cfg0.win 10).blk t).view.emb j := by
  funext a; apply Fin.ext
  match a with
  | ⟨0, _⟩ => show win0_2.index t (0 : Fin 2) * 2000 + 1 * (j 0).val = win0_10.index t (0 : Fin 2) * 2000 + 1 * (j 0).val; rw [index_2]
  | ⟨1, _⟩ => show win0_2.index t (1 : Fin 2) * 128 + 1 * (j 1).val = win0_10.index t (1 : Fin 2) * 128 + 1 * (j 1).val; rw [index_2]
theorem emb_3 (t : Fin cfg0.N) (j : S2000x128.Idx) :
    ((cfg0.win 3).blk t).view.emb j = ((cfg0.win 10).blk t).view.emb j := by
  funext a; apply Fin.ext
  match a with
  | ⟨0, _⟩ => show win0_3.index t (0 : Fin 2) * 2000 + 1 * (j 0).val = win0_10.index t (0 : Fin 2) * 2000 + 1 * (j 0).val; rw [index_3]
  | ⟨1, _⟩ => show win0_3.index t (1 : Fin 2) * 128 + 1 * (j 1).val = win0_10.index t (1 : Fin 2) * 128 + 1 * (j 1).val; rw [index_3]
theorem emb_4 (t : Fin cfg0.N) (j : S2000x128.Idx) :
    ((cfg0.win 4).blk t).view.emb j = ((cfg0.win 10).blk t).view.emb j := by
  funext a; apply Fin.ext
  match a with
  | ⟨0, _⟩ => show win0_4.index t (0 : Fin 2) * 2000 + 1 * (j 0).val = win0_10.index t (0 : Fin 2) * 2000 + 1 * (j 0).val; rw [index_4]
  | ⟨1, _⟩ => show win0_4.index t (1 : Fin 2) * 128 + 1 * (j 1).val = win0_10.index t (1 : Fin 2) * 128 + 1 * (j 1).val; rw [index_4]
theorem emb_5 (t : Fin cfg0.N) (j : S2000x128.Idx) :
    ((cfg0.win 5).blk t).view.emb j = ((cfg0.win 10).blk t).view.emb j := by
  funext a; apply Fin.ext
  match a with
  | ⟨0, _⟩ => show win0_5.index t (0 : Fin 2) * 2000 + 1 * (j 0).val = win0_10.index t (0 : Fin 2) * 2000 + 1 * (j 0).val; rw [index_5]
  | ⟨1, _⟩ => show win0_5.index t (1 : Fin 2) * 128 + 1 * (j 1).val = win0_10.index t (1 : Fin 2) * 128 + 1 * (j 1).val; rw [index_5]
theorem emb_6 (t : Fin cfg0.N) (j : S2000x128.Idx) :
    ((cfg0.win 6).blk t).view.emb j = ((cfg0.win 10).blk t).view.emb j := by
  funext a; apply Fin.ext
  match a with
  | ⟨0, _⟩ => show win0_6.index t (0 : Fin 2) * 2000 + 1 * (j 0).val = win0_10.index t (0 : Fin 2) * 2000 + 1 * (j 0).val; rw [index_6]
  | ⟨1, _⟩ => show win0_6.index t (1 : Fin 2) * 128 + 1 * (j 1).val = win0_10.index t (1 : Fin 2) * 128 + 1 * (j 1).val; rw [index_6]
theorem emb_7 (t : Fin cfg0.N) (j : S2000x128.Idx) :
    ((cfg0.win 7).blk t).view.emb j = ((cfg0.win 10).blk t).view.emb j := by
  funext a; apply Fin.ext
  match a with
  | ⟨0, _⟩ => show win0_7.index t (0 : Fin 2) * 2000 + 1 * (j 0).val = win0_10.index t (0 : Fin 2) * 2000 + 1 * (j 0).val; rw [index_7]
  | ⟨1, _⟩ => show win0_7.index t (1 : Fin 2) * 128 + 1 * (j 1).val = win0_10.index t (1 : Fin 2) * 128 + 1 * (j 1).val; rw [index_7]
theorem emb_8 (t : Fin cfg0.N) (j : S2000x128.Idx) :
    ((cfg0.win 8).blk t).view.emb j = ((cfg0.win 10).blk t).view.emb j := by
  funext a; apply Fin.ext
  match a with
  | ⟨0, _⟩ => show win0_8.index t (0 : Fin 2) * 2000 + 1 * (j 0).val = win0_10.index t (0 : Fin 2) * 2000 + 1 * (j 0).val; rw [index_8]
  | ⟨1, _⟩ => show win0_8.index t (1 : Fin 2) * 128 + 1 * (j 1).val = win0_10.index t (1 : Fin 2) * 128 + 1 * (j 1).val; rw [index_8]
theorem emb_9 (t : Fin cfg0.N) (j : S2000x128.Idx) :
    ((cfg0.win 9).blk t).view.emb j = ((cfg0.win 10).blk t).view.emb j := by
  funext a; apply Fin.ext
  match a with
  | ⟨0, _⟩ => show win0_9.index t (0 : Fin 2) * 2000 + 1 * (j 0).val = win0_10.index t (0 : Fin 2) * 2000 + 1 * (j 0).val; rw [index_9]
  | ⟨1, _⟩ => show win0_9.index t (1 : Fin 2) * 128 + 1 * (j 1).val = win0_10.index t (1 : Fin 2) * 128 + 1 * (j 1).val; rw [index_9]

/-- THE POINTWISE STEP, for any ten arrays: the body's arithmetic on their blocks at point `t` is block `t` of their
    energies. Entry `j` of the result is the edge energy of entry `j` of the ten blocks (`body_apply`), and entry `j` of
    each block is its array at the output block's entry `j` (`emb_w`). -/
theorem point_energies (a0 a1 a2 a3 a4 a5 a6 a7 a8 a9 : S50000x128.Idx → Elt Ideal .f32) (t : Fin cfg0.N) :
    (cfg0.win 10).cut (grid0.coords t)
      (k0_pay1 (k0_pay2 (((cfg0.win 8).blk t).view.read (Elt Ideal) a8)) (k0_pay3 (((cfg0.win 8).blk t).view.read (Elt Ideal) a8) (((cfg0.win 0).blk t).view.read (Elt Ideal) a0) (((cfg0.win 3).blk t).view.read (Elt Ideal) a3) (((cfg0.win 1).blk t).view.read (Elt Ideal) a1) (((cfg0.win 4).blk t).view.read (Elt Ideal) a4) (((cfg0.win 2).blk t).view.read (Elt Ideal) a2) (((cfg0.win 5).blk t).view.read (Elt Ideal) a5) (((cfg0.win 6).blk t).view.read (Elt Ideal) a6) (((cfg0.win 7).blk t).view.read (Elt Ideal) a7)) (((cfg0.win 9).blk t).view.read (Elt Ideal) a9))
      = ((cfg0.win 10).blk t).view.read (Elt Ideal) (energies a0 a1 a2 a3 a4 a5 a6 a7 a8 a9) := by
  funext j
  exact (body_apply (((cfg0.win 0).blk t).view.read (Elt Ideal) a0) (((cfg0.win 1).blk t).view.read (Elt Ideal) a1) (((cfg0.win 2).blk t).view.read (Elt Ideal) a2) (((cfg0.win 3).blk t).view.read (Elt Ideal) a3) (((cfg0.win 4).blk t).view.read (Elt Ideal) a4) (((cfg0.win 5).blk t).view.read (Elt Ideal) a5) (((cfg0.win 6).blk t).view.read (Elt Ideal) a6) (((cfg0.win 7).blk t).view.read (Elt Ideal) a7) (((cfg0.win 8).blk t).view.read (Elt Ideal) a8) (((cfg0.win 9).blk t).view.read (Elt Ideal) a9) j).trans
    (EdgeEnergy.pair_congr (congrArg a6 (emb_6 t j)) (congrArg a7 (emb_7 t j)) (congrArg a0 (emb_0 t j)) (congrArg a1 (emb_1 t j)) (congrArg a2 (emb_2 t j)) (congrArg a3 (emb_3 t j)) (congrArg a4 (emb_4 t j)) (congrArg a5 (emb_5 t j)) (congrArg a9 (emb_9 t j)) (congrArg a8 (emb_8 t j)))

/-- What point `t` writes back, before anything is read at an index: the body's arithmetic on the ten input blocks
    (its one store covers the buffer, and each load is of a whole buffer). -/
theorem flushed_body (c : Dev nD) (t : Fin cfg0.N) :
    (dats m 0 c).flushed 10 t = (cfg0.win 10).cut (grid0.coords t)
      (k0_pay1 (k0_pay2 (iblk m c 8 t)) (k0_pay3 (iblk m c 8 t) (iblk m c 0 t) (iblk m c 3 t) (iblk m c 1 t) (iblk m c 4 t) (iblk m c 2 t) (iblk m c 5 t) (iblk m c 6 t) (iblk m c 7 t)) (iblk m c 9 t)) := by
  show (cfg0.win 10).cut (grid0.coords t) ((dats m 0 c).after 10 t) = _
  rw [after0_10]
  unfold out0_10
  rw [View.canon_unit_zero origin_zero]
  simp only [View.ld_unit_zero (S := S2000x128) origin_zero]

/-- WHAT POINT `t` WRITES BACK is block `t` of the energies of the ten arrays the region is handed: the pointwise step
    at those arrays. -/
theorem flushed_eq (c : Dev nD) (t : Fin cfg0.N) :
    (dats m 0 c).flushed 10 t = ((cfg0.win 10).blk t).view.read (Elt Ideal) (energies (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9))) := by
  rw [flushed_body m c t]
  unfold iblk
  exact point_energies (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) t

/-- An index of the array is in point `t`'s block iff each coordinate is in the block's range on its axis. -/
theorem mem_blk (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v71).slice (win0_10.rect t)).set ↔ _
  rw [View.set_slice_whole, Rect.mem_set_unit]
  exact Iff.rfl

/-- Row `r` of the array lies in the block of point `r / 2000`: the 25 blocks tile the array. -/
theorem covered (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨q0, q1⟩ := block_of_point ⟨(i 0).val / 2000, hlt⟩
  have q0' : win0_10.index ⟨(i 0).val / 2000, hlt⟩ (0 : Fin 2) = (i 0).val / 2000 := q0
  refine ⟨⟨(i 0).val / 2000, hlt⟩, flush0_10 _, ?_⟩
  rw [mem_blk]
  intro a
  match a with
  | ⟨0, _⟩ => show win0_10.index ⟨(i 0).val / 2000, hlt⟩ (0 : Fin 2) * 2000 ≤ (i 0).val ∧ (i 0).val < win0_10.index ⟨(i 0).val / 2000, hlt⟩ (0 : Fin 2) * 2000 + 2000; omega
  | ⟨1, _⟩ => show win0_10.index ⟨(i 0).val / 2000, hlt⟩ (1 : Fin 2) * 128 ≤ (i 1).val ∧ (i 1).val < win0_10.index ⟨(i 0).val / 2000, hlt⟩ (1 : Fin 2) * 128 + 128; omega

/-- THE ARRAY after the region: the energies of the ten arrays the region is handed, at every index. -/
theorem final_windows (c : Dev nD) :
    (dats m 0 c).arrAt 10 cfg0.N = energies (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) :=
  (dats m 0 c).arrAt_eq_of_cover 10 _ (fun t _ => flushed_eq m c t) covered

/-- The same with each window's array named: window `w` stages the `w`-th operand of the call. -/
theorem final (c : Dev nD) :
    (dats m 0 c).arrAt 10 cfg0.N = energies (V m c main_v51) (V m c main_v54) (V m c main_v57) (V m c main_v60) (V m c main_v63) (V m c main_v66) (V m c main_v67) (V m c main_v68) (V m c main_v69) (V m c main_v70) :=
  final_windows m c

end Cert.KernelIdeal.EnergyBlocks

end
-- ==== Proof.HandedArrays.lean ====
/-
  What the host lines before the region hand it. The region's ten operands are, in the [50000,128] layout of the edges:
  the three columns of the coefficient rows gathered at each edge's pair index, the three columns of the exponent rows
  gathered there, the charge gathered at the edge's source atom and at its destination atom, the edge lengths, and the
  switch values.

  The kernel's program and the reference compute the gathered arrays by the SAME operations on the same arguments (wrap a
  negative index by the table's length, gather; the pair index `species[src] + 92·species[dst]`; the charge
  `where(species > 0, float(species), 0)`), so each gathered array is stated as the reference's own stage of it, applied to the
  kernel's arguments; the host lines composed, the two spellings are one term. Only the column cut and the reshapes
  that follow are particular to the kernel's program, and they stay in the statements for Proof/EdgeLayout.lean to read.
-/
import proofs.«126708_j19310172963097_1_alg».proof.Proof.Gen.KernelIdeal.Frame
import proofs.«126708_j19310172963097_1_alg».proof.Proof.Gen.ReferenceIdeal.Read
import Idealize.ShloMosaic.Lib.StableHlo.Run

set_option maxRecDepth 16384

noncomputable section

namespace Cert.KernelIdeal.HandedArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
/-- Window 0 is handed column 0 of the gathered coefficient rows, in the [50000,128] layout. -/
theorem handed_0 (c : Dev nD) :
    (V m c main_v51 : S50000x128.Idx → Elt Ideal .f32)
      = shapeCast S50000x128 (shapeCast S6400000 (extractStridedSlice S6400000x1 ![0, 0] (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg5))) slices_S6400000x3_S6400000x1_0_0) shapeCasts_S6400000x1_S6400000) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 1 is handed column 1 of the gathered coefficient rows, in the [50000,128] layout. -/
theorem handed_1 (c : Dev nD) :
    (V m c main_v54 : S50000x128.Idx → Elt Ideal .f32)
      = shapeCast S50000x128 (shapeCast S6400000 (extractStridedSlice S6400000x1 ![0, 1] (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg5))) slices_S6400000x3_S6400000x1_0_1) shapeCasts_S6400000x1_S6400000) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 2 is handed column 2 of the gathered coefficient rows, in the [50000,128] layout. -/
theorem handed_2 (c : Dev nD) :
    (V m c main_v57 : S50000x128.Idx → Elt Ideal .f32)
      = shapeCast S50000x128 (shapeCast S6400000 (extractStridedSlice S6400000x1 ![0, 2] (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg5))) slices_S6400000x3_S6400000x1_0_2) shapeCasts_S6400000x1_S6400000) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 3 is handed column 0 of the gathered exponent rows, in the [50000,128] layout. -/
theorem handed_3 (c : Dev nD) :
    (V m c main_v60 : S50000x128.Idx → Elt Ideal .f32)
      = shapeCast S50000x128 (shapeCast S6400000 (extractStridedSlice S6400000x1 ![0, 0] (Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg6))) slices_S6400000x3_S6400000x1_0_0) shapeCasts_S6400000x1_S6400000) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 4 is handed column 1 of the gathered exponent rows, in the [50000,128] layout. -/
theorem handed_4 (c : Dev nD) :
    (V m c main_v63 : S50000x128.Idx → Elt Ideal .f32)
      = shapeCast S50000x128 (shapeCast S6400000 (extractStridedSlice S6400000x1 ![0, 1] (Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg6))) slices_S6400000x3_S6400000x1_0_1) shapeCasts_S6400000x1_S6400000) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 5 is handed column 2 of the gathered exponent rows, in the [50000,128] layout. -/
theorem handed_5 (c : Dev nD) :
    (V m c main_v66 : S50000x128.Idx → Elt Ideal .f32)
      = shapeCast S50000x128 (shapeCast S6400000 (extractStridedSlice S6400000x1 ![0, 2] (Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg6))) slices_S6400000x3_S6400000x1_0_2) shapeCasts_S6400000x1_S6400000) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 6 is handed the charge gathered at each edge's source atom, in the [50000,128] layout. -/
theorem handed_6 (c : Dev nD) :
    (V m c main_v67 : S50000x128.Idx → Elt Ideal .f32)
      = shapeCast S50000x128 (Cert.ReferenceIdeal.Read.val_main_v48 (F := Ideal) (m ((c.tc : Thread nD τ).loc main_arg0)) (m ((c.tc : Thread nD τ).loc main_arg1))) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 7 is handed the charge gathered at each edge's destination atom, in the [50000,128] layout. -/
theorem handed_7 (c : Dev nD) :
    (V m c main_v68 : S50000x128.Idx → Elt Ideal .f32)
      = shapeCast S50000x128 (Cert.ReferenceIdeal.Read.val_main_v55 (F := Ideal) (m ((c.tc : Thread nD τ).loc main_arg0)) (m ((c.tc : Thread nD τ).loc main_arg2))) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 8 is handed the edge lengths, in the [50000,128] layout. -/
theorem handed_8 (c : Dev nD) :
    (V m c main_v69 : S50000x128.Idx → Elt Ideal .f32)
      = shapeCast S50000x128 (m ((c.tc : Thread nD τ).loc main_arg3)) shapeCasts_S6400000_S50000x128 := by
  dsimp only [V, V0]
  simp only [hostOps0, hostOps0_1, hostOps0_2, List.flatten_cons, List.flatten_nil, List.append_nil, List.cons_append, List.nil_append]
  after_results_simp
  rfl

set_option maxHeartbeats 4000000 in
/-- Window 9 is handed the switch values, in the [50000,128] layout. -/
theorem handed_9 (c : Dev nD) :
    (V m c main_v70 : S50000x128.Idx → Elt Ideal .f32)
      = shapeCast S50000x128 (m ((c.tc : Thread nD τ).loc main_arg4)) shapeCasts_S6400000_S50000x128 := by
  dsimp only [V, V0]
  simp only [hostOps0, hostOps0_1, hostOps0_2, List.flatten_cons, List.flatten_nil, List.append_nil, List.cons_append, List.nil_append]
  after_results_simp
  rfl

end Cert.KernelIdeal.HandedArrays

end
-- ==== Proof.EdgeLayout.lean ====
/-
  The lane-dense layout of the edges: an array over the 6400000 edges is handed to the kernel's region as
  [50000,128], entry `(r, l)` holding edge `128·r + l`, and the region's [50000,128] result is read back as an array
  over the edges, edge `e` from entry `(e / 128, e % 128)`. Both are reshapes, which keep the row-major position; a
  column `o` of a [6400000,3] table reaches the region as slice → [6400000,1] → [6400000] → [50000,128], and entry
  `(r, l)` of that is entry `(128·r + l, o)` of the table.
-/
import Idealize.ShloMosaic.Lib.Pipeline.Value
import Idealize.ShloMosaic.Lib.ValueIdx
import Idealize.ShloMosaic.Lib.ValueLayout

namespace Cert.EdgeLayout

open Idealize.ShloMosaic Idealize.ShloMosaic.ValueIdx

variable {α : Type}

/-- The edge that entry `(r, l)` of the [50000,128] layout holds. -/
def edgeOf (r : Fin 50000) (l : Fin 128) : Fin 6400000 :=
  ⟨r.val * 128 + l.val, by have := r.isLt; have := l.isLt; omega⟩

/-- The row and the lane of the entry that holds edge `e`. -/
def rowOf (e : Fin 6400000) : Fin 50000 := ⟨e.val / 128, by have := e.isLt; omega⟩
def laneOf (e : Fin 6400000) : Fin 128 := ⟨e.val % 128, Nat.mod_lt _ (by decide)⟩

theorem edgeOf_rowOf_laneOf (e : Fin 6400000) : edgeOf (rowOf e) (laneOf e) = e :=
  Fin.ext (by show e.val / 128 * 128 + e.val % 128 = e.val; omega)

/-- An array over the edges reshaped to [50000,128], at `(r, l)`. -/
theorem fold_apply (x : (⟨1, ![6400000]⟩ : Shape).Idx → α)
    (h : (⟨1, ![6400000]⟩ : Shape).ShapeCasts ⟨2, ![50000, 128]⟩) (r : Fin 50000) (l : Fin 128) :
    shapeCast ⟨2, ![50000, 128]⟩ x h (ix2 r l) = x (ix1 (edgeOf r l)) :=
  shapeCast_apply x h (ix2 r l) (ix1 (edgeOf r l)) (by
    rw [Shape.rowMajor_val_one, Shape.rowMajor_val_two]; rfl)

/-- A [50000,128] array reshaped to an array over the edges, at edge `e`. -/
theorem flat_apply (y : (⟨2, ![50000, 128]⟩ : Shape).Idx → α)
    (h : (⟨2, ![50000, 128]⟩ : Shape).ShapeCasts ⟨1, ![6400000]⟩) (e : Fin 6400000) :
    shapeCast ⟨1, ![6400000]⟩ y h (ix1 e) = y (ix2 (rowOf e) (laneOf e)) :=
  shapeCast_apply y h (ix1 e) (ix2 (rowOf e) (laneOf e)) (by
    rw [Shape.rowMajor_val_one, Shape.rowMajor_val_two]
    show e.val / 128 * 128 + e.val % 128 = e.val
    omega)

/-- Column `o` of a [6400000,3] table — cut out, its unit axis dropped, reshaped to [50000,128] — at `(r, l)`. -/
theorem column_apply (X : (⟨2, ![6400000, 3]⟩ : Shape).Idx → α) (o : Nat) (ho : o < 3)
    (hs : (⟨2, ![6400000, 3]⟩ : Shape).Slices ![0, o] ⟨2, ![6400000, 1]⟩)
    (h1 : (⟨2, ![6400000, 1]⟩ : Shape).ShapeCasts ⟨1, ![6400000]⟩)
    (h2 : (⟨1, ![6400000]⟩ : Shape).ShapeCasts ⟨2, ![50000, 128]⟩) (r : Fin 50000) (l : Fin 128) :
    shapeCast ⟨2, ![50000, 128]⟩ (shapeCast ⟨1, ![6400000]⟩ (extractStridedSlice ⟨2, ![6400000, 1]⟩ ![0, o] X hs) h1) h2 (ix2 r l)
      = X (ix2 (edgeOf r l) ⟨o, ho⟩) := by
  refine (fold_apply _ h2 r l).trans ?_
  refine (shapeCast_apply _ h1 (ix1 (edgeOf r l)) (ix2 (edgeOf r l) (0 : Fin 1)) (by
    rw [Shape.rowMajor_val_two, Shape.rowMajor_val_one]
    show (edgeOf r l).val * 1 + 0 = (edgeOf r l).val
    omega)).trans ?_
  exact slice2_axis1_apply o X hs (edgeOf r l) (0 : Fin 1) ⟨o, ho⟩ rfl

end Cert.EdgeLayout
-- ==== Proof.RefEnergy.lean ====
/-
  The reference, read as a value: its result is a fixed TAIL — scale by the constant `0x3E877828` the segment sum, over
  the source atom of each edge, into 100000 zeros — applied to the array of edge energies, and that array's entry for
  edge `e` is the edge energy (Proof/EdgeEnergy.lean) of: the two gathered charges at `e`, row `e` of the gathered
  coefficient and exponent tables, and `switch[e]`, `distances[e]`.

  The gathers (which row of a table an edge reads) are never opened: both programs spell them with the same
  operations, so they are carried as the stages `val_main_v23`, `val_main_v30`, `val_main_v48`, `val_main_v55` of the
  generated reading of the reference. What IS read here: the negation, the two broadcasts of `distances` along the
  three columns, the two products, the exponential, the sum over the three columns from `0`, the three products and the
  quotient.
-/
import proofs.«126708_j19310172963097_1_alg».proof.Proof.Gen.ReferenceIdeal.Read
import proofs.«126708_j19310172963097_1_alg».proof.Proof.EdgeEnergy
import Idealize.ShloMosaic.Lib.ValueIdx
import Idealize.ShloMosaic.PureOps.Ideal.Laws

noncomputable section

namespace Cert.ReferenceIdeal.RefEnergy

open Cert.ReferenceIdeal Cert.ReferenceIdeal.Gen Cert.ReferenceIdeal.Read Idealize.ShloMosaic Idealize.ShloMosaic.ValueIdx

/-- The part both programs end with: the energies summed per source atom (`segment_sum` as a scatter-add into zeros,
    at the edges' source indices as a one-column table) and scaled by the constant. -/
def perAtom (src : (⟨S6400000, .i32⟩ : BufTy).Contents (Elt Ideal)) (E : (⟨S6400000, .f32⟩ : BufTy).Contents (Elt Ideal)) :
    (⟨S100000, .f32⟩ : BufTy).Contents (Elt Ideal) :=
  mulf (broadcastInDim S100000 ![] bcast_S_S100000 (constant (F := Ideal) S_ .f32 0x3E877828#32))
    (Host.scatterAdd (F := Ideal) scatter_S100000_S6400000x1_S6400000_n_0_0_1
      (broadcastInDim S100000 ![] bcast_S_S100000 (constant (F := Ideal) S_ .f32 0x00000000#32))
      (broadcastInDim S6400000x1 ![0] bcast_S6400000_S6400000x1_0 src) E)

variable (x0 : (⟨S100000, .i32⟩ : BufTy).Contents (Elt Ideal)) (x1 x2 : (⟨S6400000, .i32⟩ : BufTy).Contents (Elt Ideal)) (x3 x4 : (⟨S6400000, .f32⟩ : BufTy).Contents (Elt Ideal)) (x5 x6 : (⟨S8649x3, .f32⟩ : BufTy).Contents (Elt Ideal))

/-- The reference's result is that tail of its energies stage. -/
theorem result_eq :
    val_main_v64 (F := Ideal) x0 x1 x2 x3 x4 x5 x6 = perAtom x1 (val_main_v59 (F := Ideal) x0 x1 x2 x3 x4 x5 x6) := rfl

/-- Column `k` of row `e`: where the sum over the columns reads its operand. -/
theorem col_idx (e : Fin 6400000) (k : Fin 3) : idx_main_v41 (ix1 e) k = ix2 e k :=
  funext fun a => Fin.ext (by match a with | ⟨0, _⟩ => rfl | ⟨1, _⟩ => rfl)

/-- The two broadcasts lay `distances` along the three columns: entry `(e, k)` reads `distances[e]`. -/
theorem dist_idx (e : Fin 6400000) (k : Fin 3) : idx_main_v36 (idx_main_v37 (ix2 e k)) = ix1 e :=
  funext fun a => Fin.ext (by match a with | ⟨0, _⟩ => rfl)

/-- THE ENERGIES STAGE AT EDGE `e` is the edge energy of the gathered charges, the gathered row of coefficients and of
    exponents, the switch value and the length of `e`. The one law used is that the sum of three terms from `0`, each
    exponent negated, is the kernel's left-to-right sum with exponents `(0 − a)·d` (`EdgeEnergy.sum_eq_screen`). -/
theorem energy_apply (e : Fin 6400000) :
    val_main_v59 (F := Ideal) x0 x1 x2 x3 x4 x5 x6 (ix1 e)
      = EdgeEnergy.pair (val_main_v48 (F := Ideal) x0 x1 (ix1 e)) (val_main_v55 (F := Ideal) x0 x2 (ix1 e))
          (val_main_v23 (F := Ideal) x0 x1 x2 x5 (ix2 e 0)) (val_main_v23 (F := Ideal) x0 x1 x2 x5 (ix2 e 1)) (val_main_v23 (F := Ideal) x0 x1 x2 x5 (ix2 e 2))
          (val_main_v30 (F := Ideal) x0 x1 x2 x6 (ix2 e 0)) (val_main_v30 (F := Ideal) x0 x1 x2 x6 (ix2 e 1)) (val_main_v30 (F := Ideal) x0 x1 x2 x6 (ix2 e 2))
          (x4 (ix1 e)) (x3 (ix1 e)) := by
  rw [val_main_v59_apply, val_main_v58_apply, val_main_v57_apply, val_main_v56_apply, val_main_v41_apply]
  simp only [val_main_v40_apply, val_main_v39_apply, val_main_v38_apply, val_main_v35_apply, val_main_v37_apply,
    val_main_v36_apply, val_main_cst_9_apply, col_idx, dist_idx]
  simp only [Ideal.hostDivf_def, Ideal.mulf_def, Ideal.hostUnary_exp_def, Ideal.hostNegf_def, Ideal.negf_def,
    Ideal.ofBits_def, Ideal.ofBits_zero_f32]
  have h := EdgeEnergy.sum_eq_screen (fun k => val_main_v23 (F := Ideal) x0 x1 x2 x5 (ix2 e k))
    (fun k => val_main_v30 (F := Ideal) x0 x1 x2 x6 (ix2 e k)) (x3 (ix1 e))
  rw [h]
  rfl

end Cert.ReferenceIdeal.RefEnergy

end
-- ==== Proof.KernelResult.lean ====
/-
  The kernel's program, read as a value: its result is the same TAIL as the reference's (scale · segment sum into
  zeros) applied to the region's output read back as an array over the edges, and that array IS the reference's
  energies stage of the kernel's arguments.

  Edge `e` is read back from entry `(e / 128, e % 128)` of the region's output; that entry is the edge energy of the
  same entry of the ten arrays the region is handed (Proof/EnergyBlocks.lean); each of those is the gathered value, the
  table column, the length or the switch value of edge `128·(e / 128) + e % 128 = e` (Proof/HandedArrays.lean through
  Proof/EdgeLayout.lean); and the edge energy of those ten numbers is what the reference's stage holds at `e`
  (Proof/RefEnergy.lean).
-/
import proofs.«126708_j19310172963097_1_alg».proof.Proof.EnergyBlocks
import proofs.«126708_j19310172963097_1_alg».proof.Proof.HandedArrays
import proofs.«126708_j19310172963097_1_alg».proof.Proof.EdgeLayout
import proofs.«126708_j19310172963097_1_alg».proof.Proof.RefEnergy

set_option maxRecDepth 16384

noncomputable section

namespace Cert.KernelIdeal.KernelResult

open Cert.KernelIdeal Cert.KernelIdeal.Gen Idealize.ShloMosaic Idealize.ShloMosaic.TcCoe Idealize.SL.Sem Idealize.ShloMosaic.StableHlo
open Idealize.ShloMosaic.ValueIdx
open Cert

variable (m : (ℓ : Loc nD τ sig) → Buf (Elt Ideal) ℓ)

/-- The region's output, read back as an array over the edges. -/
abbrev edgeEnergies (c : Dev nD) : S6400000.Idx → Elt Ideal .f32 :=
  shapeCast S6400000 ((dats m 0 c).arrAt 10 cfg0.N) shapeCasts_S50000x128_S6400000

set_option maxHeartbeats 4000000 in
/-- THE RESULT through the host lines after the region: the edges' source indices are the argument as launched (no
    window stages it and no host line writes it), the region's output array is what the pipeline left, and the four
    remaining lines are the reference's tail. -/
theorem result_tail (c : Dev nD) :
    Pipeline.afterTail₀ cfgs (dats m) 0 (V0 m) [hostOps1] c main_v77
      = Cert.ReferenceIdeal.RefEnergy.perAtom (m ((c.tc : Thread nD τ).loc main_arg1)) (edgeEnergies m c) := by
  unfold Pipeline.afterTail₀
  show StableHlo.after hostOps1 _ (Proc.devRef .tc main_v77) = _
  after_results
  have e1 : Pipeline.withArrays (cfgs 0).spec c (V0 m c) (fun w => (dats m 0 c).arrAt w (cfgs 0).N) (Proc.devRef .tc main_arg1)
      = (m ((c.tc : Thread nD τ).loc main_arg1)) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats m 0 c).arrAt w (cfgs 0).N) (Proc.devRef .tc main_v71)
      = (dats m 0 c).arrAt 10 cfg0.N :=
    Pipeline.withArrays_arr spec0 launch0.win.arr_inj c _ _ 10
  rw [e1, e2]
  rfl

set_option maxHeartbeats 4000000 in
/-- THE KERNEL'S ENERGIES ARE THE REFERENCE'S: edge by edge. -/
theorem energies_eq (c : Dev nD) :
    edgeEnergies m c = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold edgeEnergies
  rw [EnergyBlocks.final]
  funext i
  obtain ⟨e, rfl⟩ : ∃ e : Fin 6400000, i = ix1 e := ⟨i 0, eq_ix1 i⟩
  rw [Cert.ReferenceIdeal.RefEnergy.energy_apply]
  refine (EdgeLayout.flat_apply _ shapeCasts_S50000x128_S6400000 e).trans ?_
  show EdgeEnergy.pair _ _ _ _ _ _ _ _ _ _ = _
  rw [HandedArrays.handed_0 m c, HandedArrays.handed_1 m c, HandedArrays.handed_2 m c, HandedArrays.handed_3 m c, HandedArrays.handed_4 m c, HandedArrays.handed_5 m c, HandedArrays.handed_6 m c, HandedArrays.handed_7 m c, HandedArrays.handed_8 m c, HandedArrays.handed_9 m c]
  rw [EdgeLayout.column_apply (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg5))) 0 (by decide) slices_S6400000x3_S6400000x1_0_0 shapeCasts_S6400000x1_S6400000 shapeCasts_S6400000_S50000x128 (EdgeLayout.rowOf e) (EdgeLayout.laneOf e),
    EdgeLayout.column_apply (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg5))) 1 (by decide) slices_S6400000x3_S6400000x1_0_1 shapeCasts_S6400000x1_S6400000 shapeCasts_S6400000_S50000x128 (EdgeLayout.rowOf e) (EdgeLayout.laneOf e),
    EdgeLayout.column_apply (Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg5))) 2 (by decide) slices_S6400000x3_S6400000x1_0_2 shapeCasts_S6400000x1_S6400000 shapeCasts_S6400000_S50000x128 (EdgeLayout.rowOf e) (EdgeLayout.laneOf e),
    EdgeLayout.column_apply (Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg6))) 0 (by decide) slices_S6400000x3_S6400000x1_0_0 shapeCasts_S6400000x1_S6400000 shapeCasts_S6400000_S50000x128 (EdgeLayout.rowOf e) (EdgeLayout.laneOf e),
    EdgeLayout.column_apply (Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg6))) 1 (by decide) slices_S6400000x3_S6400000x1_0_1 shapeCasts_S6400000x1_S6400000 shapeCasts_S6400000_S50000x128 (EdgeLayout.rowOf e) (EdgeLayout.laneOf e),
    EdgeLayout.column_apply (Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg6))) 2 (by decide) slices_S6400000x3_S6400000x1_0_2 shapeCasts_S6400000x1_S6400000 shapeCasts_S6400000_S50000x128 (EdgeLayout.rowOf e) (EdgeLayout.laneOf e),
    EdgeLayout.fold_apply (Cert.ReferenceIdeal.Read.val_main_v48 (F := Ideal) (m ((c.tc : Thread nD τ).loc main_arg0)) (m ((c.tc : Thread nD τ).loc main_arg1))) shapeCasts_S6400000_S50000x128 (EdgeLayout.rowOf e) (EdgeLayout.laneOf e),
    EdgeLayout.fold_apply (Cert.ReferenceIdeal.Read.val_main_v55 (F := Ideal) (m ((c.tc : Thread nD τ).loc main_arg0)) (m ((c.tc : Thread nD τ).loc main_arg2))) shapeCasts_S6400000_S50000x128 (EdgeLayout.rowOf e) (EdgeLayout.laneOf e),
    EdgeLayout.fold_apply (m ((c.tc : Thread nD τ).loc main_arg3)) shapeCasts_S6400000_S50000x128 (EdgeLayout.rowOf e) (EdgeLayout.laneOf e),
    EdgeLayout.fold_apply (m ((c.tc : Thread nD τ).loc main_arg4)) shapeCasts_S6400000_S50000x128 (EdgeLayout.rowOf e) (EdgeLayout.laneOf e)]
  rw [EdgeLayout.edgeOf_rowOf_laneOf]
  rfl

/-- THE KERNEL'S RUN with its result named: every weakly fair execution terminates with the result buffer at the tail of
    the reference's energies stage of the kernel's own arguments, the arguments unchanged (the generated frame run,
    its post read at the result buffer and at each argument). -/
theorem run (ρ : Dev nD → PrngReg) :
    θ_run defs (onTc (τ := τ) (main (F := Ideal))) ⟨m, fun _ => 0, ρ⟩ (fun r => ∀ c : Dev nD,
      r.2.mem ((c.tc : Thread nD τ).loc main_v77)
          = Cert.ReferenceIdeal.RefEnergy.perAtom (m ((c.tc : Thread nD τ).loc main_arg1)) (Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v77 (Pipeline.mem_restRefs_of main_v77 (by decide) (by decide))).trans
        ((result_tail m c).trans (congrArg (Cert.ReferenceIdeal.RefEnergy.perAtom (m ((c.tc : Thread nD τ).loc main_arg1))) (energies_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KernelResult

end
-- ==== Proof.lean ====
/-
  The certificate of the pair-repulsion kernel against its jnp reference, over the extended reals.

  Both programs compute, for each of 6400000 edges, the energy  Z[src]·Z[dst]·φ(d)·switch / d  with the three-term
  screening function φ(d) = Σₖ cₖ·exp(−aₖ·d), the coefficient and exponent rows gathered from two 8649-row tables at the
  edge's pair index, and then sum the energies per source atom and scale by one constant. They differ in where the
  arithmetic runs and how it is spelt: the kernel's program cuts the gathered tables into columns, lays every per-edge
  array out as [50000,128] and runs the arithmetic in a 25-point pipelined region, adding the three terms left to right
  with exponents `(0 − a)·d`; the reference negates, broadcasts and sums along the column axis from `0`.

  * The three frames: the two kernel programs' are the generated frame; the reference's is its generated run with the
    result dropped.
  * `preserves`: the ideal pass rewrote nothing, so there is nothing to state.
  * `algebraic`: both runs end with the result at ONE term of the kernel's arguments — the common tail of the
    reference's energies stage (Proof/KernelResult.lean for the kernel's run, Proof/RefEnergy.lean for the reference's)
    — so the two results are equal once the agreeing arguments are rewritten. No step needs a finite input: the law
    between the two spellings (Proof/EdgeEnergy.lean) holds at the infinities too.
-/
import proofs.«126708_j19310172963097_1_alg».proof.Defs
import proofs.«126708_j19310172963097_1_alg».proof.Proof.Gen.Kernel
import proofs.«126708_j19310172963097_1_alg».proof.Proof.Gen.Kernel.Skeleton
import proofs.«126708_j19310172963097_1_alg».proof.Proof.Gen.Kernel.Launch
import proofs.«126708_j19310172963097_1_alg».proof.Proof.Gen.Kernel.Points
import proofs.«126708_j19310172963097_1_alg».proof.Proof.Gen.Kernel.Frame
import proofs.«126708_j19310172963097_1_alg».proof.Proof.Gen.KernelIdeal
import proofs.«126708_j19310172963097_1_alg».proof.Proof.Gen.KernelIdeal.Skeleton
import proofs.«126708_j19310172963097_1_alg».proof.Proof.Gen.KernelIdeal.Launch
import proofs.«126708_j19310172963097_1_alg».proof.Proof.Gen.KernelIdeal.Points
import proofs.«126708_j19310172963097_1_alg».proof.Proof.Gen.KernelIdeal.Frame
import proofs.«126708_j19310172963097_1_alg».proof.Proof.Gen.ReferenceIdeal
import proofs.«126708_j19310172963097_1_alg».proof.Proof.Gen.ReferenceIdeal.Run
import proofs.«126708_j19310172963097_1_alg».proof.Proof.Gen.ReferenceIdeal.Read
import proofs.«126708_j19310172963097_1_alg».proof.Proof.Gen.Pre_finite_inputs
import proofs.«126708_j19310172963097_1_alg».proof.Proof.KernelResult
import proofs.«126708_j19310172963097_1_alg».proof.Proof.RefEnergy
import Idealize.ShloMosaic.Adequacy
import Idealize.ShloMosaic.Init

noncomputable section

namespace Cert.Proof

open Idealize.ShloMosaic Idealize.SL.Sem

/-- The kernel's program at the word level runs, faults nowhere and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the seven arguments both runs end with the result at the per-atom sums of the
    reference's energies stage of the kernel's arguments. -/
theorem algebraic : Cert.algebraic_KernelIdeal_ReferenceIdeal := by
  intro m ρ m' ρ' _ hagree
  refine ⟨fun c => Cert.ReferenceIdeal.RefEnergy.perAtom (m ((c.tc : Thread Cert.KernelIdeal.nD Cert.KernelIdeal.τ).loc Cert.KernelIdeal.main_arg1))
      (Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.RefEnergy.result_eq, (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
